-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S_ : Shape := ⟨0, ![]⟩

class Facts : Prop where
  bcast_S_S32x2048x1280 : S_.BroadcastsInDim S32x2048x1280 (![] : Fin 0 → Fin S32x2048x1280.rank)
  reducesTo_S32x2048x1280_S_d0_1_2 : S32x2048x1280.ReducesTo [0, 1, 2] S_
  h_S_ : 0 < S_.numel
  bcast_S_S1280x160 : S_.BroadcastsInDim S1280x160 (![] : Fin 0 → Fin S1280x160.rank)
  reducesTo_S1280x160_S_d0_1 : S1280x160.ReducesTo [0, 1] S_
  bcast_S_S160 : S_.BroadcastsInDim S160 (![] : Fin 0 → Fin S160.rank)
  reducesTo_S160_S_d0 : S160.ReducesTo [0] S_
  bcast_S_S160x1280 : S_.BroadcastsInDim S160x1280 (![] : Fin 0 → Fin S160x1280.rank)
  reducesTo_S160x1280_S_d0_1 : S160x1280.ReducesTo [0, 1] S_
  bcast_S_S1280 : S_.BroadcastsInDim S1280 (![] : Fin 0 → Fin S1280.rank)
  reducesTo_S1280_S_d0 : S1280.ReducesTo [0] S_

variable [Facts]

def fn_part1 {F : FTy → Type} [FloatOps F] (main_arg4 : FVec F S1280 .f32) (main_v13 : IVec S_ 1) (main_v16 : IVec S160x1280 1) : IVec S_ 1 :=
  let main_c_5 : IVec S_ 1 := constantI S_ 1 1#1
  let main_v17 : IVec S_ 1 := (fun x v => Host.reduce IntOp.andi x v reducesTo_S160x1280_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  main_v23

def fn {F : FTy → Type} [FloatOps F] (main_arg0 : FVec F S32x2048x1280 .f32) (main_arg1 : FVec F S1280x160 .f32) (main_arg2 : FVec F S160 .f32) (main_arg3 : FVec F S160x1280 .f32) (main_arg4 : FVec F S1280 .f32) : IVec S_ 1 :=
  let main_v0 : FVec F S32x2048x1280 .f32 := Host.absf main_arg0
  let main_cst : FVec F S_ .f32 := constant S_ .f32 0x7F800000#32
  let main_v1 : FVec F S32x2048x1280 .f32 := broadcastInDim S32x2048x1280 ![] bcast_S_S32x2048x1280 main_cst
  let main_v2 : IVec S32x2048x1280 1 := cmpf .olt main_v0 main_v1
  let main_c : IVec S_ 1 := constantI S_ 1 1#1
  let main_v3 : IVec S_ 1 := (fun x v => Host.reduce IntOp.andi x v reducesTo_S32x2048x1280_S_d0_1_2 h_S_) main_v2 main_c
  let main_v4 : FVec F S1280x160 .f32 := Host.absf main_arg1
  let main_cst_0 : FVec F S_ .f32 := constant S_ .f32 0x7F800000#32
  let main_v5 : FVec F S1280x160 .f32 := broadcastInDim S1280x160 ![] bcast_S_S1280x160 main_cst_0
  let main_v6 : IVec S1280x160 1 := cmpf .olt main_v4 main_v5
  let main_c_1 : IVec S_ 1 := constantI S_ 1 1#1
  let main_v7 : IVec S_ 1 := (fun x v => Host.reduce IntOp.andi x v reducesTo_S1280x160_S_d0_1 h_S_) main_v6 main_c_1
  let main_v8 : IVec S_ 1 := andi main_v3 main_v7
  let main_v9 : FVec F S160 .f32 := Host.absf main_arg2
  let main_cst_2 : FVec F S_ .f32 := constant S_ .f32 0x7F800000#32
  let main_v10 : FVec F S160 .f32 := broadcastInDim S160 ![] bcast_S_S160 main_cst_2
  let main_v11 : IVec S160 1 := cmpf .olt main_v9 main_v10
  let main_c_3 : IVec S_ 1 := constantI S_ 1 1#1
  let main_v12 : IVec S_ 1 := (fun x v => Host.reduce IntOp.andi x v reducesTo_S160_S_d0 h_S_) main_v11 main_c_3
  let main_v13 : IVec S_ 1 := andi main_v8 main_v12
  let main_v14 : FVec F S160x1280 .f32 := Host.absf main_arg3
  let main_cst_4 : FVec F S_ .f32 := constant S_ .f32 0x7F800000#32
  let main_v15 : FVec F S160x1280 .f32 := broadcastInDim S160x1280 ![] bcast_S_S160x1280 main_cst_4
  let main_v16 : IVec S160x1280 1 := cmpf .olt main_v14 main_v15
  fn_part1 (F := F) main_arg4 main_v13 main_v16
-- ==== Kernel.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S32x1280 : Shape := ⟨2, ![32, 1280]⟩
abbrev S32x512x256 : Shape := ⟨3, ![32, 512, 256]⟩
abbrev S32x256 : Shape := ⟨2, ![32, 256]⟩
abbrev S_ : Shape := ⟨0, ![]⟩
abbrev S32x160 : Shape := ⟨2, ![32, 160]⟩
abbrev S1x160 : Shape := ⟨2, ![1, 160]⟩
abbrev S1x1280 : Shape := ⟨2, ![1, 1280]⟩
abbrev S32x256x256 : Shape := ⟨3, ![32, 256, 256]⟩
abbrev S32x1x256 : Shape := ⟨3, ![32, 1, 256]⟩

abbrev nBuf : Space → Nat
  | .hbm => 12
  | .vmem => 19
  | .smem => 0
  | _ => 0

abbrev bufTy : (tb : Table) → Fin (tcTables nBuf tb) → BufTy
  | .hbm, ⟨0, _⟩ => ⟨S32x2048x1280, .f32⟩
  | .hbm, ⟨1, _⟩ => ⟨S1280x160, .f32⟩
  | .hbm, ⟨2, _⟩ => ⟨S160, .f32⟩
  | .hbm, ⟨3, _⟩ => ⟨S160x1280, .f32⟩
  | .hbm, ⟨4, _⟩ => ⟨S1280, .f32⟩
  | .hbm, ⟨5, _⟩ => ⟨S32x1280, .f32⟩
  | .hbm, ⟨6, _⟩ => ⟨S32x1280, .f32⟩
  | .hbm, ⟨7, _⟩ => ⟨S_, .f32⟩
  | .hbm, ⟨8, _⟩ => ⟨S32x1280, .f32⟩
  | .hbm, ⟨9, _⟩ => ⟨S32x1280, .f32⟩
  | .hbm, ⟨10, _⟩ => ⟨S32x1280, .f32⟩
  | .hbm, ⟨11, _⟩ => ⟨S32x2048x1280, .f32⟩
  | .local _ .vmem, ⟨0, _⟩ => ⟨S32x512x256, .f32⟩
  | .local _ .vmem, ⟨1, _⟩ => ⟨S32x512x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x1280, .f32⟩
  | .local _ .vmem, ⟨7, _⟩ => ⟨S32x1280, .f32⟩
  | .local _ .vmem, ⟨8, _⟩ => ⟨S1280x160, .f32⟩
  | .local _ .vmem, ⟨9, _⟩ => ⟨S160, .f32⟩
  | .local _ .vmem, ⟨10, _⟩ => ⟨S160x1280, .f32⟩
  | .local _ .vmem, ⟨11, _⟩ => ⟨S1280, .f32⟩
  | .local _ .vmem, ⟨12, _⟩ => ⟨S32x1280, .f32⟩
  | .local _ .vmem, ⟨13, _⟩ => ⟨S32x256x256, .f32⟩
  | .local _ .vmem, ⟨14, _⟩ => ⟨S32x256x256, .f32⟩
  | .local _ .vmem, ⟨15, _⟩ => ⟨S32x256, .f32⟩
  | .local _ .vmem, ⟨16, _⟩ => ⟨S32x256, .f32⟩
  | .local _ .vmem, ⟨17, _⟩ => ⟨S32x256x256, .f32⟩
  | .local _ .vmem, ⟨18, _⟩ => ⟨S32x256x256, .f32⟩
  | _, _ => ⟨S32x2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨2, ![5, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1280 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S32x1280 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1280x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S160x1280 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1280 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x1280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![5, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage2_0 : Fin 2 → Memref sig .tc .vmem S32x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S32x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S32x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S32x256_S32x256_0_0 : ∀ a, (![0, 0] : Fin 2 → Nat) a + S32x256.size a ≤ S32x256.size a
  h_S32x256 : 0 < S32x256.numel
  inb_S32x512x256_S32x512x256_0_0_0 : ∀ a, (![0, 0, 0] : Fin 3 → Nat) a + S32x512x256.size a ≤ S32x512x256.size a
  h_S32x512x256 : 0 < S32x512x256.numel
  shapeCasts_S32x256_S32x256 : S32x256.ShapeCasts S32x256
  reduces_S32x512x256_S32x256 : S32x512x256.Reduces [1] S32x256
  bcast_S_S32x1280 : S_.BroadcastsInDim S32x1280 (![] : Fin 0 → Fin S32x1280.rank)
  inb_S1280x160_S1280x160_0_0 : ∀ a, (![0, 0] : Fin 2 → Nat) a + S1280x160.size a ≤ S1280x160.size a
  h_S1280x160 : 0 < S1280x160.numel
  bitsLt_bf16_f32 : FTy.bits .bf16 < FTy.bits .f32
  inb_S160x1280_S160x1280_0_0 : ∀ a, (![0, 0] : Fin 2 → Nat) a + S160x1280.size a ≤ S160x1280.size a
  h_S160x1280 : 0 < S160x1280.numel
  inb_S160_S160_0 : ∀ a, (![0] : Fin 1 → Nat) a + S160.size a ≤ S160.size a
  h_S160 : 0 < S160.numel
  inb_S1280_S1280_0 : ∀ a, (![0] : Fin 1 → Nat) a + S1280.size a ≤ S1280.size a
  h_S1280 : 0 < S1280.numel
  inb_S32x1280_S32x1280_0_0 : ∀ a, (![0, 0] : Fin 2 → Nat) a + S32x1280.size a ≤ S32x1280.size a
  h_S32x1280 : 0 < S32x1280.numel
  shapeCasts_S32x1280_S32x1280 : S32x1280.ShapeCasts S32x1280
  shapeCasts_S160_S1x160 : S160.ShapeCasts S1x160
  broadcasts_S1x160_S32x160 : S1x160.Broadcasts S32x160
  shapeCasts_S1280_S1x1280 : S1280.ShapeCasts S1x1280
  broadcasts_S1x1280_S32x1280 : S1x1280.Broadcasts S32x1280
  inb_S32x256x256_S32x256x256_0_0_0 : ∀ a, (![0, 0, 0] : Fin 3 → Nat) a + S32x256x256.size a ≤ S32x256x256.size a
  h_S32x256x256 : 0 < S32x256x256.numel
  shapeCasts_S32x256_S32x1x256 : S32x256.ShapeCasts S32x1x256
  broadcasts_S32x1x256_S32x256x256 : S32x1x256.Broadcasts S32x256x256
  dot_S32x1280_S1280x160_S32x160_1_0_0_1_n_n_wf : DotDims.WF S32x1280 S1280x160 S32x160 [1] [0] [0] [1] [] []
  dot_S32x160_S160x1280_S32x1280_1_0_0_1_n_n_wf : DotDims.WF S32x160 S160x1280 S32x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x256.size a ≤ S32x2048x1280.size a
  hwx0_0 : ∀ i : grid0.Coords, EltTy.bits .f32 = 32 ∨ (Rect.block (s := S32x2048x1280) S32x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x1280.size a
  hwx0_1 : ∀ i : grid0.Coords, EltTy.bits .f32 = 32 ∨ (Rect.block (s := S32x1280) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x1280.size a
  hwx0_2 : ∀ i : grid0.Coords, EltTy.bits .f32 = 32 ∨ (Rect.block (s := S32x1280) S32x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1280.size a ≤ S32x1280.size a
  hwx1_0 : ∀ i : grid1.Coords, EltTy.bits .f32 = 32 ∨ (Rect.block (s := S32x1280) S32x1280.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x1280.size a ≤ S32x1280.size a
  hwx1_1 : ∀ i : grid1.Coords, EltTy.bits .f32 = 32 ∨ (Rect.block (s := S32x1280) S32x1280.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1280x160.size a ≤ S1280x160.size a
  hwx1_2 : ∀ i : grid1.Coords, EltTy.bits .f32 = 32 ∨ (Rect.block (s := S1280x160) S1280x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S160.size a ≤ S160.size a
  hwx1_3 : ∀ i : grid1.Coords, EltTy.bits .f32 = 32 ∨ (Rect.block (s := S160) S160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S160x1280.size a ≤ S160x1280.size a
  hwx1_4 : ∀ i : grid1.Coords, EltTy.bits .f32 = 32 ∨ (Rect.block (s := S160x1280) S160x1280.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1280.size a ≤ S1280.size a
  hwx1_5 : ∀ i : grid1.Coords, EltTy.bits .f32 = 32 ∨ (Rect.block (s := S1280) S1280.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x1280.size a ≤ S32x1280.size a
  hwx1_6 : ∀ i : grid1.Coords, EltTy.bits .f32 = 32 ∨ (Rect.block (s := S32x1280) S32x1280.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x256x256.size a ≤ S32x2048x1280.size a
  hwx2_0 : ∀ i : grid2.Coords, EltTy.bits .f32 = 32 ∨ (Rect.block (s := S32x2048x1280) S32x256x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S32x256.size a ≤ S32x1280.size a
  hwx2_1 : ∀ i : grid2.Coords, EltTy.bits .f32 = 32 ∨ (Rect.block (s := S32x1280) S32x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S32x256x256.size a ≤ S32x2048x1280.size a
  hwx2_2 : ∀ i : grid2.Coords, EltTy.bits .f32 = 32 ∨ (Rect.block (s := S32x2048x1280) S32x256x256.size (cc2_transform_2 i) (hinb2_2 i)).WholeWords (EltTy.packing .f32)

variable [Facts₀]

def dot_S32x1280_S1280x160_S32x160_1_0_0_1_n_n : DotDims S32x1280 S1280x160 S32x160 where
  lhsContracting := [1]
  rhsContracting := [0]
  lhsNonContracting := [0]
  rhsNonContracting := [1]
  lhsBatch := []
  rhsBatch := []
  wf := dot_S32x1280_S1280x160_S32x160_1_0_0_1_n_n_wf
def dot_S32x160_S160x1280_S32x1280_1_0_0_1_n_n : DotDims S32x160 S160x1280 S32x1280 where
  lhsContracting := [1]
  rhsContracting := [0]
  lhsNonContracting := [0]
  rhsNonContracting := [1]
  lhsBatch := []
  rhsBatch := []
  wf := dot_S32x160_S160x1280_S32x1280_1_0_0_1_n_n_wf

abbrev win0_0 : Pipeline.Window sig grid0 :=
  Pipeline.Window.ofSpec (Memref.whole main_arg0) S32x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S32x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S32x1280.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S32x1280.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1280x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S160x1280.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S1280.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S32x1280.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S32x256x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S32x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S32x256x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S32x2048x1280 : Shape := ⟨3, ![32, 2048, 1280]⟩
abbrev S1280x160 : Shape := ⟨2, ![1280, 160]⟩
abbrev S160 : Shape := ⟨1, ![160]⟩
abbrev S160x1280 : Shape := ⟨2, ![160, 1280]⟩
abbrev S1280 : Shape := ⟨1, ![1280]⟩
abbrev S_ : Shape := ⟨0, ![]⟩
abbrev S32x1280 : Shape := ⟨2, ![32, 1280]⟩
abbrev S32x160 : Shape := ⟨2, ![32, 160]⟩
abbrev S1x160 : Shape := ⟨2, ![1, 160]⟩
abbrev S1x1280 : Shape := ⟨2, ![1, 1280]⟩
abbrev S32x1x1280 : Shape := ⟨3, ![32, 1, 1280]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x1280, .f32⟩
  | .hbm, ⟨1, _⟩ => ⟨S1280x160, .f32⟩
  | .hbm, ⟨2, _⟩ => ⟨S160, .f32⟩
  | .hbm, ⟨3, _⟩ => ⟨S160x1280, .f32⟩
  | .hbm, ⟨4, _⟩ => ⟨S1280, .f32⟩
  | .hbm, ⟨5, _⟩ => ⟨S_, .f32⟩
  | .hbm, ⟨6, _⟩ => ⟨S32x1280, .f32⟩
  | .hbm, ⟨7, _⟩ => ⟨S_, .f32⟩
  | .hbm, ⟨8, _⟩ => ⟨S32x1280, .f32⟩
  | .hbm, ⟨9, _⟩ => ⟨S32x1280, .f32⟩
  | .hbm, ⟨10, _⟩ => ⟨S_, .f32⟩
  | .hbm, ⟨11, _⟩ => ⟨S32x1280, .f32⟩
  | .hbm, ⟨12, _⟩ => ⟨S32x160, .f32⟩
  | .hbm, ⟨13, _⟩ => ⟨S1x160, .f32⟩
  | .hbm, ⟨14, _⟩ => ⟨S32x160, .f32⟩
  | .hbm, ⟨15, _⟩ => ⟨S32x160, .f32⟩
  | .hbm, ⟨16, _⟩ => ⟨S_, .f32⟩
  | .hbm, ⟨17, _⟩ => ⟨S32x160, .f32⟩
  | .hbm, ⟨18, _⟩ => ⟨S32x160, .f32⟩
  | .hbm, ⟨19, _⟩ => ⟨S32x1280, .f32⟩
  | .hbm, ⟨20, _⟩ => ⟨S1x1280, .f32⟩
  | .hbm, ⟨21, _⟩ => ⟨S32x1280, .f32⟩
  | .hbm, ⟨22, _⟩ => ⟨S32x1280, .f32⟩
  | .hbm, ⟨23, _⟩ => ⟨S32x160, .f32⟩
  | .hbm, ⟨24, _⟩ => ⟨S1x160, .f32⟩
  | .hbm, ⟨25, _⟩ => ⟨S32x160, .f32⟩
  | .hbm, ⟨26, _⟩ => ⟨S32x160, .f32⟩
  | .hbm, ⟨27, _⟩ => ⟨S_, .f32⟩
  | .hbm, ⟨28, _⟩ => ⟨S32x160, .f32⟩
  | .hbm, ⟨29, _⟩ => ⟨S32x160, .f32⟩
  | .hbm, ⟨30, _⟩ => ⟨S32x1280, .f32⟩
  | .hbm, ⟨31, _⟩ => ⟨S1x1280, .f32⟩
  | .hbm, ⟨32, _⟩ => ⟨S32x1280, .f32⟩
  | .hbm, ⟨33, _⟩ => ⟨S32x1280, .f32⟩
  | .hbm, ⟨34, _⟩ => ⟨S32x1280, .f32⟩
  | .hbm, ⟨35, _⟩ => ⟨S32x1280, .f32⟩
  | .hbm, ⟨36, _⟩ => ⟨S32x1280, .f32⟩
  | .hbm, ⟨37, _⟩ => ⟨S_, .f32⟩
  | .hbm, ⟨38, _⟩ => ⟨S32x1280, .f32⟩
  | .hbm, ⟨39, _⟩ => ⟨S32x1280, .f32⟩
  | .hbm, ⟨40, _⟩ => ⟨S_, .f32⟩
  | .hbm, ⟨41, _⟩ => ⟨S32x1280, .f32⟩
  | .hbm, ⟨42, _⟩ => ⟨S32x1280, .f32⟩
  | .hbm, ⟨43, _⟩ => ⟨S32x1x1280, .f32⟩
  | .hbm, ⟨44, _⟩ => ⟨S32x2048x1280, .f32⟩
  | .hbm, ⟨45, _⟩ => ⟨S32x2048x1280, .f32⟩
  | _, _ => ⟨S32x2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  reducesTo_S32x2048x1280_S32x1280_d1 : S32x2048x1280.ReducesTo [1] S32x1280
  h_S_ : 0 < S_.numel
  bcast_S_S32x1280 : S_.BroadcastsInDim S32x1280 (![] : Fin 0 → Fin S32x1280.rank)
  bcast_S160_S1x160_1 : S160.BroadcastsInDim S1x160 (![1] : Fin 1 → Fin S1x160.rank)
  bcast_S1x160_S32x160_0_1 : S1x160.BroadcastsInDim S32x160 (![0, 1] : Fin 2 → Fin S32x160.rank)
  bcast_S_S32x160 : S_.BroadcastsInDim S32x160 (![] : Fin 0 → Fin S32x160.rank)
  bcast_S1280_S1x1280_1 : S1280.BroadcastsInDim S1x1280 (![1] : Fin 1 → Fin S1x1280.rank)
  bcast_S1x1280_S32x1280_0_1 : S1x1280.BroadcastsInDim S32x1280 (![0, 1] : Fin 2 → Fin S32x1280.rank)
  bcast_S32x1280_S32x1x1280_0_2 : S32x1280.BroadcastsInDim S32x1x1280 (![0, 2] : Fin 2 → Fin S32x1x1280.rank)
  bcast_S32x1x1280_S32x2048x1280_0_1_2 : S32x1x1280.BroadcastsInDim S32x2048x1280 (![0, 1, 2] : Fin 3 → Fin S32x2048x1280.rank)
  dot_S32x1280_S1280x160_S32x160_1_0_0_1_n_n_wf : DotDims.WF S32x1280 S1280x160 S32x160 [1] [0] [0] [1] [] []
  dot_S32x160_S160x1280_S32x1280_1_0_0_1_n_n_wf : DotDims.WF S32x160 S160x1280 S32x1280 [1] [0] [0] [1] [] []

variable [Facts₀]

def dot_S32x1280_S1280x160_S32x160_1_0_0_1_n_n : DotDims S32x1280 S1280x160 S32x160 where
  lhsContracting := [1]
  rhsContracting := [0]
  lhsNonContracting := [0]
  rhsNonContracting := [1]
  lhsBatch := []
  rhsBatch := []
  wf := dot_S32x1280_S1280x160_S32x160_1_0_0_1_n_n_wf
def dot_S32x160_S160x1280_S32x1280_1_0_0_1_n_n : DotDims S32x160 S160x1280 S32x1280 where
  lhsContracting := [1]
  rhsContracting := [0]
  lhsNonContracting := [0]
  rhsNonContracting := [1]
  lhsBatch := []
  rhsBatch := []
  wf := dot_S32x160_S160x1280_S32x1280_1_0_0_1_n_n_wf

class Facts : Prop extends Facts₀ where

variable [Facts]
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.Spec.lean ====
/-
  Channel attention by pooling, as one function of the five argument arrays.

  For an input `x` of shape (32, 2048, 1280) — batch, sequence, channels — each (batch, channel) pair is pooled over the
  sequence axis twice: by its sum from the zero word (then divided by the sequence length 2048, the mean) and by its maximum
  from the word of minus infinity.  Both pooled rows of a batch entry go through one shared two-layer network
  (1280 → 160 → 1280, a positive part between the layers); the two results are added and sent through the logistic
  function, giving one gate per (batch, channel).  The output is `x` scaled, along the sequence, by that gate.

  The float words stay as words: both programs spell the same ones, so none is ever evaluated here.
-/
import proofs.«122001_j36696200577250_1_alg».proof.Proof.LibRowOps

noncomputable section

open scoped BigOperators

namespace ChannelGate

open Idealize.ShloMosaic Idealize.ShloMosaic.ValueIdx

/-- The sum of channel `q` of batch entry `b` over the sequence, from the zero word. -/
def poolSum (x : (⟨3, ![32, 2048, 1280]⟩ : Shape).Idx → EReal) (b : Fin 32) (q : Fin 1280) : EReal :=
  Ideal.ofBits .f32 0x00000000#32 + ∑ l : Fin 2048, x (ix3 b l q)

/-- The maximum of channel `q` of batch entry `b` over the sequence, from the word of minus infinity. -/
def poolMax (x : (⟨3, ![32, 2048, 1280]⟩ : Shape).Idx → EReal) (b : Fin 32) (q : Fin 1280) : EReal :=
  (Finset.univ : Finset (Fin 2048)).fold max (Ideal.ofBits .f32 0xFF800000#32) (fun l => x (ix3 b l q))

/-- The mean: the sum divided by the word of 2048. -/
def poolMean (x : (⟨3, ![32, 2048, 1280]⟩ : Shape).Idx → EReal) (b : Fin 32) (q : Fin 1280) : EReal :=
  Ideal.div (poolSum x b q) (Ideal.ofBits .f32 0x45000000#32)

/-- The gate of one batch entry from its two pooled rows `g` and `p`: the shared network on each, added, then the logistic
    function. -/
def gate (w1 : (⟨2, ![1280, 160]⟩ : Shape).Idx → EReal) (b1 : (⟨1, ![160]⟩ : Shape).Idx → EReal)
    (w2 : (⟨2, ![160, 1280]⟩ : Shape).Idx → EReal) (b2 : (⟨1, ![1280]⟩ : Shape).Idx → EReal)
    (g p : Fin 1280 → EReal) (q : Fin 1280) : EReal :=
  Ideal.logistic (RowOps.dense w2 b2 (RowOps.relu (RowOps.dense w1 b1 g)) q
    + RowOps.dense w2 b2 (RowOps.relu (RowOps.dense w1 b1 p)) q)

/-- An array over (batch, sequence, channel) scaled along the sequence by an array over (batch, channel). -/
def scaleBy (x : (⟨3, ![32, 2048, 1280]⟩ : Shape).Idx → EReal) (a : (⟨2, ![32, 1280]⟩ : Shape).Idx → EReal)
    (b : Fin 32) (l : Fin 2048) (q : Fin 1280) : EReal :=
  x (ix3 b l q) * a (ix2 b q)

/-- The whole function: `x` at (b, l, q) times the gate of (b, q). -/
def out (x : (⟨3, ![32, 2048, 1280]⟩ : Shape).Idx → EReal) (w1 : (⟨2, ![1280, 160]⟩ : Shape).Idx → EReal)
    (b1 : (⟨1, ![160]⟩ : Shape).Idx → EReal) (w2 : (⟨2, ![160, 1280]⟩ : Shape).Idx → EReal)
    (b2 : (⟨1, ![1280]⟩ : Shape).Idx → EReal) (b : Fin 32) (l : Fin 2048) (q : Fin 1280) : EReal :=
  x (ix3 b l q) * gate w1 b1 w2 b2 (poolMean x b) (poolMax x b) q

end ChannelGate

end
-- ==== Proof.Pool.lean ====
import proofs.«122001_j36696200577250_1_alg».proof.Proof.Gen.KernelIdeal.Frame
import proofs.«122001_j36696200577250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool
open Cert.KernelIdeal Cert.KernelIdeal.Gen

/-! The pooling region's two result arrays. Grid point t has channel tile t / 4 and sequence tile t % 4. The two running
    blocks are reset at t % 4 = 0 (to the zero word, to the word of minus infinity), gain at every point the input block's
    sum, resp. maximum, over its sequence axis, and are written back at t % 4 = 3: by then they hold, at (b, r), the zero
    word plus the sum, resp. the fold of max from the word of minus infinity, of x(b, ·, 256 (t / 4) + r) over all 2048
    sequence positions. -/

section CaseValues
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case B, output 1: the running block plus the input block's sum over its axis 1. -/
theorem out_B_1 (c : Dev nD) (i : grid0.Coords) (a2 : Memref sig .tc .vmem S32x512x256 .f32) (h2 : a2.IsWhole)
    (a3 : Memref sig .tc .vmem S32x256 .f32) (h3 : a3.IsWhole) (a4 : Memref sig .tc .vmem S32x256 .f32) (h4 : a4.IsWhole)
    (hc : ¬cond0_0 i) (x0 : Vec F S32x512x256 .f32) (xo1 xo2 : Vec F S32x256 .f32) :
    out0_B_1 c i a2 h2 a3 h3 a4 h4 hc x0 xo1 xo2 = k0_pay3 x0 xo1 := by
  unfold out0_B_1
  rw [View.read_writes_eq_canon _ _ _ (cover0_B_1 c i a2 h2 a3 h3 a4 h4 hc x0 xo1 xo2)]
  unfold kernelRun0_B
  dsimp only
  rw [View.canon_unit_zero hz2]
  simp only [View.readAt_eq_ld, h2.read_unread, h3.read_unread, View.ld_unit_zero (S := S32x256) hz2,
    View.ld_unit_zero (S := S32x512x256) hz3]

/-- Case B, output 2: the maximum of the running block and the input block's maximum over its axis 1. -/
theorem out_B_2 (c : Dev nD) (i : grid0.Coords) (a2 : Memref sig .tc .vmem S32x512x256 .f32) (h2 : a2.IsWhole)
    (a3 : Memref sig .tc .vmem S32x256 .f32) (h3 : a3.IsWhole) (a4 : Memref sig .tc .vmem S32x256 .f32) (h4 : a4.IsWhole)
    (hc : ¬cond0_0 i) (x0 : Vec F S32x512x256 .f32) (xo1 xo2 : Vec F S32x256 .f32) :
    out0_B_2 c i a2 h2 a3 h3 a4 h4 hc x0 xo1 xo2 = k0_pay4 x0 xo2 := by
  unfold out0_B_2
  rw [View.read_writes_eq_canon _ _ _ (cover0_B_2 c i a2 h2 a3 h3 a4 h4 hc x0 xo1 xo2)]
  unfold kernelRun0_B
  dsimp only
  rw [View.canon_unit_zero hz2]
  simp only [View.readAt_eq_ld, h2.read_unread, h4.read_unread, View.ld_unit_zero (S := S32x256) hz2,
    View.ld_unit_zero (S := S32x512x256) hz3]

/-- Case A, output 1: the zero block plus the input block's sum over its axis 1. -/
theorem out_A_1 (c : Dev nD) (i : grid0.Coords) (a2 : Memref sig .tc .vmem S32x512x256 .f32) (h2 : a2.IsWhole)
    (a3 : Memref sig .tc .vmem S32x256 .f32) (h3 : a3.IsWhole) (a4 : Memref sig .tc .vmem S32x256 .f32) (h4 : a4.IsWhole)
    (hc : cond0_0 i) (x0 : Vec F S32x512x256 .f32) :
    out0_A_1 c i a2 h2 a3 h3 a4 h4 hc x0 = k0_pay3 x0 k0_pay1 := by
  unfold out0_A_1
  rw [View.read_writes_eq_canon _ _ _ (cover0_A_1 c i a2 h2 a3 h3 a4 h4 hc x0)]
  unfold kernelRun0_A
  dsimp only
  sl_unfold_words
  rw [View.canon_cons_unit_zero (S := S32x256) hz2, View.readCov_unit_zero (S := S32x256) _ hz2]
  simp only [View.readAt_eq_ld, h2.read_unread, View.ld_unit_zero (S := S32x512x256) hz3]

/-- Case A, output 2: the maximum of the block of the word of minus infinity and the input block's maximum over its axis 1. -/
theorem out_A_2 (c : Dev nD) (i : grid0.Coords) (a2 : Memref sig .tc .vmem S32x512x256 .f32) (h2 : a2.IsWhole)
    (a3 : Memref sig .tc .vmem S32x256 .f32) (h3 : a3.IsWhole) (a4 : Memref sig .tc .vmem S32x256 .f32) (h4 : a4.IsWhole)
    (hc : cond0_0 i) (x0 : Vec F S32x512x256 .f32) :
    out0_A_2 c i a2 h2 a3 h3 a4 h4 hc x0 = k0_pay4 x0 k0_pay2 := by
  unfold out0_A_2
  rw [View.read_writes_eq_canon _ _ _ (cover0_A_2 c i a2 h2 a3 h3 a4 h4 hc x0)]
  unfold kernelRun0_A
  dsimp only
  sl_unfold_words
  rw [View.canon_cons_unit_zero (S := S32x256) hz2, View.readCov_unit_zero (S := S32x256) _ hz2]
  simp only [View.readAt_eq_ld, h2.read_unread, View.ld_unit_zero (S := S32x512x256) hz3]

end CaseValues

section PayloadsAtIndex

/-- The sum payload at (b, r): the running value plus the sum of the block's column (b, ·, r). -/
theorem pay3_at (x0 : Vec Ideal S32x512x256 .f32) (a : Vec Ideal S32x256 .f32) (b : Fin 32) (r : Fin 256) :
    k0_pay3 x0 a (ix2 b r) = a (ix2 b r) + ∑ k : Fin 512, x0 (ix3 b k r) := by
  unfold k0_pay3
  dsimp only
  rw [addf_apply, shapeCast_self]
  refine congrArg (a (ix2 b r) + ·) ?_
  refine (Ideal.multiReduction_add_single _ _ reduces_S32x512x256_S32x256 _ _ (ix2 b r)).trans ?_
  refine Finset.sum_congr rfl fun k _ => congrArg x0 ?_
  funext d
  match d with
  | ⟨0, _⟩ => rfl
  | ⟨1, _⟩ => rfl
  | ⟨2, _⟩ => rfl

/-- The maximum payload at (b, r): the larger of the running value and the fold of max, from the word of minus infinity,
    over the block's column (b, ·, r). -/
theorem pay4_at (x0 : Vec Ideal S32x512x256 .f32) (a : Vec Ideal S32x256 .f32) (b : Fin 32) (r : Fin 256) :
    k0_pay4 x0 a (ix2 b r)
      = max (a (ix2 b r)) ((Finset.univ : Finset (Fin 512)).fold max (Ideal.ofBits .f32 0xFF800000#32) fun k => x0 (ix3 b k r)) := by
  unfold k0_pay4
  dsimp only
  show max (shapeCast S32x256 a shapeCasts_S32x256_S32x256 (ix2 b r)) _ = _
  rw [shapeCast_self]
  refine congrArg (max (a (ix2 b r))) ?_
  refine (Ideal.multiReduction_maximumf_single _ _ reduces_S32x512x256_S32x256 _ _ (ix2 b r)).trans ?_
  refine congrArg (fun f => (Finset.univ : Finset (Fin 512)).fold max (Ideal.ofBits .f32 0xFF800000#32) f) ?_
  funext k
  refine congrArg x0 ?_
  funext d
  match d with
  | ⟨0, _⟩ => rfl
  | ⟨1, _⟩ => rfl
  | ⟨2, _⟩ => rfl

end PayloadsAtIndex

section BlockRead
variable (V : (c : Dev nD) → (b : Ref sig .tc) → Buf (Elt Ideal) ((c : Thread nD τ).loc b))

theorem tlt (t : Fin cfg0.N) : t.val < 20 := lt_of_lt_of_eq t.isLt (show cfg0.N = 20 from N_0)

/-- The input array at natural-number coordinates (sequence position, channel); zero outside the array. -/
def xN (c : Dev nD) (b : Fin 32) (l q : ℕ) : EReal :=
  if h : l < 2048 ∧ q < 1280 then V c main_arg0 (ix3 b ⟨l, h.1⟩ ⟨q, h.2⟩) else 0

/-- Input window 0's block index at point t is (0, t % 4, t / 4). -/
theorem index0_0 : ∀ t : Fin grid0.N, win0_0.index t 0 = 0 ∧ win0_0.index t 1 = t.val % 4 ∧ win0_0.index t 2 = t.val / 4 := by
  decide +kernel

/-- The input block of point t at (b, k, r) is the array at (b, 512 (t % 4) + k, 256 (t / 4) + r). -/
theorem iblk0_at (c : Dev nD) (t : Fin cfg0.N) (b : Fin 32) (k : Fin 512) (r : Fin 256) :
    (iblk0 V c 0 t : Vec Ideal S32x512x256 .f32) (ix3 b k r)
      = xN V c b (512 * (t.val % 4) + k.val) (256 * (t.val / 4) + r.val) := by
  have ht := tlt t
  have hi := index0_0 t
  unfold xN
  rw [dif_pos ⟨by omega, by omega⟩]
  unfold iblk0
  rw [View.read_apply]
  show V c main_arg0 _ = V c main_arg0 _
  refine congrArg (V c main_arg0) ?_
  funext a
  apply Fin.ext
  match a with
  | ⟨0, _⟩ => show win0_0.index t 0 * 32 + 1 * b.val = b.val; rw [hi.1]; omega
  | ⟨1, _⟩ => show win0_0.index t 1 * 512 + 1 * k.val = 512 * (t.val % 4) + k.val; rw [hi.2.1]; omega
  | ⟨2, _⟩ => show win0_0.index t 2 * 256 + 1 * r.val = 256 * (t.val / 4) + r.val; rw [hi.2.2]; omega

end BlockRead

section Folds
open scoped BigOperators

/-- A sum over the first a + m naturals splits into the first a and the next m. -/
theorem sum_range_add_fin (f : ℕ → EReal) (a m : ℕ) :
    (∑ x ∈ Finset.range a, f x) + ∑ k : Fin m, f (a + k.val) = ∑ x ∈ Finset.range (a + m), f x := by
  rw [Finset.sum_range_add]
  exact congrArg _ (Finset.sum_range fun x => f (a + x)).symm

/-- The fold of max over the first a + m naturals is the larger of the fold over the first a and the fold over the next m
    (max is idempotent, so the repeated starting value does no harm). -/
theorem fold_max_range_add (f : ℕ → EReal) (z : EReal) (a m : ℕ) :
    max ((Finset.range a).fold max z f) ((Finset.univ : Finset (Fin m)).fold max z fun k => f (a + k.val))
      = (Finset.range (a + m)).fold max z f := by
  refine eq_of_forall_ge_iff fun c => ?_
  rw [max_le_iff, Finset.fold_max_le, Finset.fold_max_le, Finset.fold_max_le]
  constructor
  · rintro ⟨⟨hz, h1⟩, -, h2⟩
    refine ⟨hz, fun x hx => ?_⟩
    rw [Finset.mem_range] at hx
    by_cases hxa : x < a
    · exact h1 x (Finset.mem_range.mpr hxa)
    · have h := h2 ⟨x - a, by omega⟩ (Finset.mem_univ _)
      change f (a + (x - a)) ≤ c at h
      rwa [show a + (x - a) = x from by omega] at h
  · rintro ⟨hz, h⟩
    exact ⟨⟨hz, fun x hx => h x (Finset.mem_range.mpr (by have := Finset.mem_range.mp hx; omega))⟩, hz,
      fun k _ => h _ (Finset.mem_range.mpr (by have := k.isLt; omega))⟩

/-- The fold of max over the first m naturals is the fold over Fin m. -/
theorem fold_max_range_eq_univ (f : ℕ → EReal) (z : EReal) (m : ℕ) :
    (Finset.range m).fold max z f = (Finset.univ : Finset (Fin m)).fold max z fun k => f k.val := by
  refine eq_of_forall_ge_iff fun c => ?_
  rw [Finset.fold_max_le, Finset.fold_max_le]
  constructor
  · rintro ⟨hz, h⟩
    exact ⟨hz, fun k _ => h _ (Finset.mem_range.mpr k.isLt)⟩
  · rintro ⟨hz, h⟩
    exact ⟨hz, fun x hx => h ⟨x, Finset.mem_range.mp hx⟩ (Finset.mem_univ _)⟩

end Folds

section Invariant
open scoped BigOperators
variable (V : (c : Dev nD) → (b : Ref sig .tc) → Buf (Elt Ideal) ((c : Thread nD τ).loc b))

/-- The two running blocks after point n, at (b, r): the zero word plus the sum, and the fold of max from the word of
    minus infinity, over the first 512 (n % 4 + 1) sequence positions of channel 256 (n / 4) + r. -/
def Inv (c : Dev nD) (b : Fin 32) (r : Fin 256) (n : ℕ) (o : Vec Ideal S32x256 .f32 × Vec Ideal S32x256 .f32) : Prop :=
  o.1 (ix2 b r) = Ideal.ofBits .f32 0x00000000#32 + ∑ l ∈ Finset.range (512 * (n % 4 + 1)), xN V c b l (256 * (n / 4) + r.val)
  ∧ o.2 (ix2 b r) = (Finset.range (512 * (n % 4 + 1))).fold max (Ideal.ofBits .f32 0xFF800000#32)
      fun l => xN V c b l (256 * (n / 4) + r.val)

/-- One point's sum step: from the first 512 j positions to the first 512 (j + 1), j = t % 4. -/
theorem step_sum (c : Dev nD) (t : Fin cfg0.N) (b : Fin 32) (r : Fin 256) (acc : Vec Ideal S32x256 .f32)
    (h : acc (ix2 b r) = Ideal.ofBits .f32 0x00000000#32
      + ∑ l ∈ Finset.range (512 * (t.val % 4)), xN V c b l (256 * (t.val / 4) + r.val)) :
    k0_pay3 (iblk0 V c 0 t) acc (ix2 b r) = Ideal.ofBits .f32 0x00000000#32
      + ∑ l ∈ Finset.range (512 * (t.val % 4 + 1)), xN V c b l (256 * (t.val / 4) + r.val) := by
  rw [pay3_at, h]
  simp only [iblk0_at]
  rw [add_assoc, show 512 * (t.val % 4 + 1) = 512 * (t.val % 4) + 512 from by omega,
    ← sum_range_add_fin (fun l => xN V c b l (256 * (t.val / 4) + r.val))]

/-- One point's max step. -/
theorem step_max (c : Dev nD) (t : Fin cfg0.N) (b : Fin 32) (r : Fin 256) (acc : Vec Ideal S32x256 .f32)
    (h : acc (ix2 b r) = (Finset.range (512 * (t.val % 4))).fold max (Ideal.ofBits .f32 0xFF800000#32)
      fun l => xN V c b l (256 * (t.val / 4) + r.val)) :
    k0_pay4 (iblk0 V c 0 t) acc (ix2 b r) = (Finset.range (512 * (t.val % 4 + 1))).fold max (Ideal.ofBits .f32 0xFF800000#32)
      fun l => xN V c b l (256 * (t.val / 4) + r.val) := by
  rw [pay4_at, h]
  simp only [iblk0_at]
  rw [show 512 * (t.val % 4 + 1) = 512 * (t.val % 4) + 512 from by omega,
    ← fold_max_range_add (fun l => xN V c b l (256 * (t.val / 4) + r.val))]

/-- At a resetting point (t % 4 = 0) the invariant holds from the two constant blocks. -/
theorem inv_A (c : Dev nD) (b : Fin 32) (r : Fin 256) (t : Fin cfg0.N) (h0 : t.val % 4 = 0) :
    Inv V c b r t.val (outsAt0 V c t.val t.isLt) := by
  rw [outsAt0_A V c t h0]
  unfold Inv
  dsimp only
  rw [out_A_1, out_A_2]
  refine ⟨step_sum V c t b r _ ?_, step_max V c t b r _ ?_⟩
  · rw [h0, Nat.mul_zero, Finset.range_zero, Finset.sum_empty, add_zero]; rfl
  · rw [h0, Nat.mul_zero, Finset.range_zero, Finset.fold_empty]; rfl

/-- At any other point it passes from the point before. -/
theorem inv_B (c : Dev nD) (b : Fin 32) (r : Fin 256) (t : Fin cfg0.N) (h0 : ¬t.val % 4 = 0)
    (IH : Inv V c b r (t.val - 1) (outsAt0 V c (t.val - 1) (Nat.lt_of_le_of_lt (Nat.sub_le _ _) t.isLt))) :
    Inv V c b r t.val (outsAt0 V c t.val t.isLt) := by
  rw [outsAt0_B V c t h0]
  unfold Inv at IH ⊢
  dsimp only
  rw [out_B_1, out_B_2]
  have e1 : (t.val - 1) % 4 + 1 = t.val % 4 := by omega
  have e2 : (t.val - 1) / 4 = t.val / 4 := by omega
  rw [e1, e2] at IH
  exact ⟨step_sum V c t b r _ IH.1, step_max V c t b r _ IH.2⟩

theorem inv_all (c : Dev nD) (b : Fin 32) (r : Fin 256) : ∀ (n : ℕ) (hn : n < cfg0.N), Inv V c b r n (outsAt0 V c n hn)
  | 0, hn => inv_A V c b r ⟨0, hn⟩ rfl
  | n + 1, hn => by
    by_cases h0 : (n + 1) % 4 = 0
    · exact inv_A V c b r ⟨n + 1, hn⟩ h0
    · exact inv_B V c b r ⟨n + 1, hn⟩ h0 (inv_all c b r n (Nat.lt_of_succ_lt hn))

end Invariant

section Final
open scoped BigOperators
variable (V : (c : Dev nD) → (b : Ref sig .tc) → Buf (Elt Ideal) ((c : Thread nD τ).loc b))

/-- Output windows 1 and 2: the block index at point t is (0, t / 4), and no block is cut. -/
theorem index0_1 : ∀ t : Fin grid0.N, (win0_1.index t 0 = 0 ∧ win0_1.index t 1 = t.val / 4)
    ∧ (win0_2.index t 0 = 0 ∧ win0_2.index t 1 = t.val / 4)
    ∧ (win0_1.xsize (grid0.coords t) 0 = 32 ∧ win0_1.xsize (grid0.coords t) 1 = 256)
    ∧ (win0_2.xsize (grid0.coords t) 0 = 32 ∧ win0_2.xsize (grid0.coords t) 1 = 256) := by
  decide +kernel

/-- The pooled sum, over natural-number sequence positions. -/
theorem poolSum_eq (c : Dev nD) (b : Fin 32) (q : Fin 1280) :
    ChannelGate.poolSum (V c main_arg0) b q
      = Ideal.ofBits .f32 0x00000000#32 + ∑ l ∈ Finset.range 2048, xN V c b l q.val := by
  unfold ChannelGate.poolSum
  rw [Finset.sum_range]
  refine congrArg (Ideal.ofBits .f32 0x00000000#32 + ·) (Finset.sum_congr rfl fun l _ => ?_)
  unfold xN
  rw [dif_pos ⟨l.isLt, q.isLt⟩]

/-- The pooled maximum, over natural-number sequence positions. -/
theorem poolMax_eq (c : Dev nD) (b : Fin 32) (q : Fin 1280) :
    ChannelGate.poolMax (V c main_arg0) b q
      = (Finset.range 2048).fold max (Ideal.ofBits .f32 0xFF800000#32) fun l => xN V c b l q.val := by
  unfold ChannelGate.poolMax
  rw [fold_max_range_eq_univ]
  refine congrArg (fun f => (Finset.univ : Finset (Fin 2048)).fold max (Ideal.ofBits .f32 0xFF800000#32) f) (funext fun l => ?_)
  unfold xN
  rw [dif_pos ⟨l.isLt, q.isLt⟩]

/-- The pooled sums as one array over (batch, channel). -/
def G1 (c : Dev nD) : Buf (Elt Ideal) ((cfg0.win 1).arr.view.loc (c.tc : Thread nD τ)) :=
  fun i => ChannelGate.poolSum (V c main_arg0) ⟨(i 0).val, (i 0).isLt⟩ ⟨(i 1).val, (i 1).isLt⟩

/-- Element (b, r) of output window 1's block at point t is element (b, 256 (t / 4) + r) of the array. -/
theorem G1_emb (c : Dev nD) (t : Fin cfg0.N) (b : Fin 32) (r : Fin 256) :
    G1 V c (((cfg0.win 1).blk t).view.emb (ix2 b r))
      = ChannelGate.poolSum (V c main_arg0) b ⟨256 * (t.val / 4) + r.val, by have := tlt t; omega⟩ := by
  have hi := (index0_1 t).1
  unfold G1
  refine congrArg₂ (ChannelGate.poolSum (V c main_arg0)) (Fin.ext ?_) (Fin.ext ?_)
  · show win0_1.index t 0 * 32 + 1 * b.val = b.val; rw [hi.1]; omega
  · show win0_1.index t 1 * 256 + 1 * r.val = 256 * (t.val / 4) + r.val; rw [hi.2]; omega

theorem flushed_eq_1 (c : Dev nD) (t : Fin cfg0.N) (hf : (cfg0.win 1).flush t = true) :
    (dat0 V c).flushed 1 t = ((cfg0.win 1).blk t).view.read (Elt Ideal) (G1 V c) := by
  have h3 : t.val % 4 = 3 := (flush0_1 t).mp hf
  show (cfg0.win 1).cut (grid0.coords t) ((dat0 V c).after 1 t) = _
  rw [after0_1]
  funext y
  obtain ⟨b, r, rfl⟩ : ∃ (b : Fin 32) (r : Fin 256), y = (ix2 b r : S32x256.Idx) :=
    ⟨y 0, y 1, eq_ix2 (n0 := 32) (n1 := 256) y⟩
  rw [View.read_apply]
  show (outsAt0 V c t.val t.isLt).1 (ix2 b r) = G1 V c (((cfg0.win 1).blk t).view.emb (ix2 b r))
  rw [G1_emb V c t b r, poolSum_eq, (inv_all V c b r t.val t.isLt).1, h3]

/-- The flushing point whose block holds channel q. -/
def tOf (q : ℕ) (hq : q < 1280) : Fin cfg0.N := ⟨4 * (q / 256) + 3, lt_of_lt_of_eq (by omega) (show cfg0.N = 20 from N_0).symm⟩

theorem cover_1 (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 32 := (i 0).isLt
  have h1 : (i 1 : Nat) < 1280 := (i 1).isLt
  refine ⟨tOf (i 1).val h1, (flush0_1 _).mpr (by show (4 * ((i 1).val / 256) + 3) % 4 = 3; omega), ?_⟩
  have hi := index0_1 (tOf (i 1).val h1)
  have hv : (tOf (i 1).val h1).val = 4 * ((i 1).val / 256) + 3 := rfl
  show i ∈ ((View.whole main_v0_0).slice (win0_1.rect (tOf (i 1).val h1))).set
  rw [View.set_slice_whole, Rect.mem_set_unit]
  intro a
  match a with
  | ⟨0, _⟩ =>
    show win0_1.index (tOf (i 1).val h1) 0 * 32 ≤ (i 0 : Nat)
      ∧ (i 0 : Nat) < win0_1.index (tOf (i 1).val h1) 0 * 32 + win0_1.xsize (grid0.coords (tOf (i 1).val h1)) 0
    rw [hi.1.1, hi.2.2.1.1]; omega
  | ⟨1, _⟩ =>
    show win0_1.index (tOf (i 1).val h1) 1 * 256 ≤ (i 1 : Nat)
      ∧ (i 1 : Nat) < win0_1.index (tOf (i 1).val h1) 1 * 256 + win0_1.xsize (grid0.coords (tOf (i 1).val h1)) 1
    rw [hi.1.2, hi.2.2.1.2, hv]; omega

end Final

section FinalMax
open scoped BigOperators
variable (V : (c : Dev nD) → (b : Ref sig .tc) → Buf (Elt Ideal) ((c : Thread nD τ).loc b))

/-- The pooled maxima as one array over (batch, channel). -/
def G2 (c : Dev nD) : Buf (Elt Ideal) ((cfg0.win 2).arr.view.loc (c.tc : Thread nD τ)) :=
  fun i => ChannelGate.poolMax (V c main_arg0) ⟨(i 0).val, (i 0).isLt⟩ ⟨(i 1).val, (i 1).isLt⟩

/-- Element (b, r) of output window 2's block at point t is element (b, 256 (t / 4) + r) of the array. -/
theorem G2_emb (c : Dev nD) (t : Fin cfg0.N) (b : Fin 32) (r : Fin 256) :
    G2 V c (((cfg0.win 2).blk t).view.emb (ix2 b r))
      = ChannelGate.poolMax (V c main_arg0) b ⟨256 * (t.val / 4) + r.val, by have := tlt t; omega⟩ := by
  have hi := (index0_1 t).2.1
  unfold G2
  refine congrArg₂ (ChannelGate.poolMax (V c main_arg0)) (Fin.ext ?_) (Fin.ext ?_)
  · show win0_2.index t 0 * 32 + 1 * b.val = b.val; rw [hi.1]; omega
  · show win0_2.index t 1 * 256 + 1 * r.val = 256 * (t.val / 4) + r.val; rw [hi.2]; omega

theorem flushed_eq_2 (c : Dev nD) (t : Fin cfg0.N) (hf : (cfg0.win 2).flush t = true) :
    (dat0 V c).flushed 2 t = ((cfg0.win 2).blk t).view.read (Elt Ideal) (G2 V c) := by
  have h3 : t.val % 4 = 3 := (flush0_2 t).mp hf
  show (cfg0.win 2).cut (grid0.coords t) ((dat0 V c).after 2 t) = _
  rw [after0_2]
  funext y
  obtain ⟨b, r, rfl⟩ : ∃ (b : Fin 32) (r : Fin 256), y = (ix2 b r : S32x256.Idx) :=
    ⟨y 0, y 1, eq_ix2 (n0 := 32) (n1 := 256) y⟩
  rw [View.read_apply]
  show (outsAt0 V c t.val t.isLt).2 (ix2 b r) = G2 V c (((cfg0.win 2).blk t).view.emb (ix2 b r))
  rw [G2_emb V c t b r, poolMax_eq, (inv_all V c b r t.val t.isLt).2, h3]

theorem cover_2 (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 32 := (i 0).isLt
  have h1 : (i 1 : Nat) < 1280 := (i 1).isLt
  refine ⟨tOf (i 1).val h1, (flush0_2 _).mpr (by show (4 * ((i 1).val / 256) + 3) % 4 = 3; omega), ?_⟩
  have hi := index0_1 (tOf (i 1).val h1)
  have hv : (tOf (i 1).val h1).val = 4 * ((i 1).val / 256) + 3 := rfl
  show i ∈ ((View.whole main_v0_1).slice (win0_2.rect (tOf (i 1).val h1))).set
  rw [View.set_slice_whole, Rect.mem_set_unit]
  intro a
  match a with
  | ⟨0, _⟩ =>
    show win0_2.index (tOf (i 1).val h1) 0 * 32 ≤ (i 0 : Nat)
      ∧ (i 0 : Nat) < win0_2.index (tOf (i 1).val h1) 0 * 32 + win0_2.xsize (grid0.coords (tOf (i 1).val h1)) 0
    rw [hi.2.1.1, hi.2.2.2.1]; omega
  | ⟨1, _⟩ =>
    show win0_2.index (tOf (i 1).val h1) 1 * 256 ≤ (i 1 : Nat)
      ∧ (i 1 : Nat) < win0_2.index (tOf (i 1).val h1) 1 * 256 + win0_2.xsize (grid0.coords (tOf (i 1).val h1)) 1
    rw [hi.2.1.2, hi.2.2.2.2, hv]; omega

end FinalMax

variable (V : (c : Dev nD) → (b : Ref sig .tc) → Buf (Elt Ideal) ((c : Thread nD τ).loc b))

theorem sum_final (c : Dev nD) (b : Fin 32) (q : Fin 1280) :
    (dat0 (F := Ideal) V c).arrAt 1 cfg0.N (ix2 b q) = ChannelGate.poolSum (V c main_arg0) b q :=
  congrFun ((dat0 V c).arrAt_eq_of_cover 1 (G1 V c) (flushed_eq_1 V c) (cover_1 c)) (ix2 b q)

theorem max_final (c : Dev nD) (b : Fin 32) (q : Fin 1280) :
    (dat0 (F := Ideal) V c).arrAt 2 cfg0.N (ix2 b q) = ChannelGate.poolMax (V c main_arg0) b q :=
  congrFun ((dat0 V c).arrAt_eq_of_cover 2 (G2 V c) (flushed_eq_2 V c) (cover_2 c)) (ix2 b q)

end Cert.KernelIdeal.Pool

end
-- ==== Proof.Gate.lean ====
/-
  The gate array.  After the gate region the array of gates holds, at (b, q), the gate of batch entry b's two pooled
  rows: each row goes through the shared two-layer network (1280 → 160, positive part, 160 → 1280), the two results are
  added, and the sum goes through the logistic function.

  Two halves.  The value the region's one store writes, read at an index, is the gate of row b of the two pooled arrays:
  a dense layer of an array acts on each row by itself, and on the extended reals narrowing an operand changes nothing.
  The region has one grid point, at which every window's block is its whole array (all offsets are zero), so that one
  stored block is the whole array of gates.
-/
import proofs.«122001_j36696200577250_1_alg».proof.Proof.Gen.KernelIdeal.Frame
import proofs.«122001_j36696200577250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Gate
open Cert.KernelIdeal Cert.KernelIdeal.Gen

/-- One pooled array through the shared two-layer network, read at row `n`, column `q`: the outer dense layer
    (160 → 1280) of the positive part of the inner dense layer (1280 → 160) of row `n`.  The narrowing of the
    operands and the cast of an array to its own shape are the identity on the extended reals. -/
theorem mlp_apply (w1 : FVec Ideal S1280x160 .f32) (w2 : FVec Ideal S160x1280 .f32) (b1 : FVec Ideal S160 .f32)
    (b2 : FVec Ideal S1280 .f32) (x : FVec Ideal S32x1280 .f32) (n : Fin 32) (q : Fin 1280) :
    addf
        (matmul dot_S32x160_S160x1280_S32x1280_1_0_0_1_n_n none
          (truncf .bf16
            (maximumf
              (addf
                (matmul dot_S32x1280_S1280x160_S32x160_1_0_0_1_n_n none
                  (truncf .bf16 (shapeCast S32x1280 x shapeCasts_S32x1280_S32x1280) bitsLt_bf16_f32)
                  (truncf .bf16 w1 bitsLt_bf16_f32) (constant (F := Ideal) S32x160 .f32 0x00000000#32))
                (broadcastTo S32x160 (shapeCast S1x160 b1 shapeCasts_S160_S1x160) broadcasts_S1x160_S32x160))
              (broadcast S32x160 (Scalar.ofBits (F := Ideal) .f32 0x00000000#32)))
            bitsLt_bf16_f32)
          (truncf .bf16 w2 bitsLt_bf16_f32) (constant (F := Ideal) S32x1280 .f32 0x00000000#32))
        (broadcastTo S32x1280 (shapeCast S1x1280 b2 shapeCasts_S1280_S1x1280) broadcasts_S1x1280_S32x1280)
        (ix2 n q)
      = RowOps.dense w2 b2 (RowOps.relu (RowOps.dense w1 b1 (fun k => x (ix2 n k)))) q := by
  refine (RowOps.dense_kernel_apply (R := 32) (K := 160) (H := 1280) _ rfl _ w2 b2 _ _ _ _ n q).trans ?_
  refine congrArg (fun r => RowOps.dense w2 b2 r q) (funext fun k => ?_)
  refine (RowOps.relu_kernel_apply (R := 32) (H := 160) _ n k).trans ?_
  refine congrArg (fun r => RowOps.relu r k) (funext fun j => ?_)
  refine (RowOps.dense_kernel_apply (R := 32) (K := 1280) (H := 160) _ rfl _ w1 b1 _ _ _ _ n j).trans ?_
  rw [shapeCast_self]

/-- The stored value of the gate kernel at `(n, q)`: the gate of row `n` of the two pooled arrays. -/
theorem pay_apply (w1 : FVec Ideal S1280x160 .f32) (w2 : FVec Ideal S160x1280 .f32) (b1 : FVec Ideal S160 .f32)
    (b2 : FVec Ideal S1280 .f32) (g p : FVec Ideal S32x1280 .f32) (n : Fin 32) (q : Fin 1280) :
    k1_pay1 (F := Ideal) w1 w2 b1 b2 g p (ix2 n q)
      = ChannelGate.gate w1 b1 w2 b2 (fun k => g (ix2 n k)) (fun k => p (ix2 n k)) q := by
  unfold k1_pay1 ChannelGate.gate
  refine (RowOps.logistic_apply _ _).trans (congrArg Ideal.logistic ?_)
  exact congrArg₂ (· + ·) (mlp_apply w1 w2 b1 b2 g n q) (mlp_apply w1 w2 b1 b2 p n q)

/-! ## From the stored value to the array

The gate kernel runs at one grid point, and there every window's block is its whole array: all offsets are zero. -/

variable (V : (c : Dev nD) → (b : Ref sig .tc) → Buf (Elt Ideal) ((c : Thread nD τ).loc b))

theorem off2 : (![0, 0] : Fin 2 → Nat) = fun _ => 0 := funext fun a => by fin_cases a <;> rfl
theorem off1 : (![0] : Fin 1 → Nat) = fun _ => 0 := funext fun a => by fin_cases a; rfl

/-- The kernel's one store covers the output block, and each of its loads reads a whole input block: the block the
    body leaves is the stored value of the six input blocks. -/
theorem out_eq (x0 x1 : Vec Ideal S32x1280 .f32) (x2 : Vec Ideal S1280x160 .f32) (x3 : Vec Ideal S160 .f32)
    (x4 : Vec Ideal S160x1280 .f32) (x5 : Vec Ideal S1280 .f32) :
    out1_6 x0 x1 x2 x3 x4 x5 = k1_pay1 x2 x4 x3 x5 x0 x1 := by
  unfold out1_6
  rw [View.canon_unit_zero off2]
  rw [View.ld_unit_zero (S := S1280x160) off2, View.ld_unit_zero (S := S160x1280) off2,
    View.ld_unit_zero (S := S160) off1, View.ld_unit_zero (S := S1280) off1,
    View.ld_unit_zero (S := S32x1280) off2, View.ld_unit_zero (S := S32x1280) off2]

/-- The mean's block at the one point is the whole array of means. -/
theorem blk_mean (c : Dev nD) : iblk1 (F := Ideal) V c 0 t1_0 = V c main_v2 := by
  have hz : (fun a => win1_0.index t1_0 a * main_v2.ty.shape.size a) = fun _ => 0 :=
    funext fun a => by fin_cases a <;> decide
  exact Memref.read_access_unit_zero (Elt Ideal) main_v2 hz (fun a => by rw [congrFun hz a]; simp) (V c main_v2)

/-- The maximum's block at the one point is the whole array of maxima. -/
theorem blk_max (c : Dev nD) : iblk1 (F := Ideal) V c 1 t1_0 = V c main_v0_1 := by
  have hz : (fun a => win1_1.index t1_0 a * main_v0_1.ty.shape.size a) = fun _ => 0 :=
    funext fun a => by fin_cases a <;> decide
  exact Memref.read_access_unit_zero (Elt Ideal) main_v0_1 hz (fun a => by rw [congrFun hz a]; simp) (V c main_v0_1)

/-- The first layer's weights. -/
theorem blk_w1 (c : Dev nD) : iblk1 (F := Ideal) V c 2 t1_0 = V c main_arg1 := by
  have hz : (fun a => win1_2.index t1_0 a * main_arg1.ty.shape.size a) = fun _ => 0 :=
    funext fun a => by fin_cases a <;> decide
  exact Memref.read_access_unit_zero (Elt Ideal) main_arg1 hz (fun a => by rw [congrFun hz a]; simp) (V c main_arg1)

/-- The first layer's bias. -/
theorem blk_b1 (c : Dev nD) : iblk1 (F := Ideal) V c 3 t1_0 = V c main_arg2 := by
  have hz : (fun a => win1_3.index t1_0 a * main_arg2.ty.shape.size a) = fun _ => 0 :=
    funext fun a => by fin_cases a; decide
  exact Memref.read_access_unit_zero (Elt Ideal) main_arg2 hz (fun a => by rw [congrFun hz a]; simp) (V c main_arg2)

/-- The second layer's weights. -/
theorem blk_w2 (c : Dev nD) : iblk1 (F := Ideal) V c 4 t1_0 = V c main_arg3 := by
  have hz : (fun a => win1_4.index t1_0 a * main_arg3.ty.shape.size a) = fun _ => 0 :=
    funext fun a => by fin_cases a <;> decide
  exact Memref.read_access_unit_zero (Elt Ideal) main_arg3 hz (fun a => by rw [congrFun hz a]; simp) (V c main_arg3)

/-- The second layer's bias. -/
theorem blk_b2 (c : Dev nD) : iblk1 (F := Ideal) V c 5 t1_0 = V c main_arg4 := by
  have hz : (fun a => win1_5.index t1_0 a * main_arg4.ty.shape.size a) = fun _ => 0 :=
    funext fun a => by fin_cases a; decide
  exact Memref.read_access_unit_zero (Elt Ideal) main_arg4 hz (fun a => by rw [congrFun hz a]; simp) (V c main_arg4)

/-- The whole gate array: the stored value of the six arrays as the region finds them. -/
def gateArr (c : Dev nD) : Buf (Elt Ideal) ((c : Thread nD τ).loc main_v3) :=
  k1_pay1 (F := Ideal) (V c main_arg1) (V c main_arg3) (V c main_arg2) (V c main_arg4) (V c main_v2) (V c main_v0_1)

/-- What the one point writes back is the output window's block of the whole gate array (that block is the array). -/
theorem flushed_eq (c : Dev nD) (t : Fin cfg1.N) (hf : (cfg1.win 6).flush t = true) :
    (dat1 (F := Ideal) V c).flushed 6 t = ((cfg1.win 6).blk t).view.read (Elt Ideal) (gateArr V c) := by
  obtain rfl : t = t1_0 := fin_N1 t
  show (cfg1.win 6).cut (grid1.coords t1_0) ((dat1 V c).after 6 t1_0) = _
  rw [after1_6, out_eq, blk_mean, blk_max, blk_w1, blk_b1, blk_w2, blk_b2]
  have hz : (fun a => win1_6.index t1_0 a * main_v3.ty.shape.size a) = fun _ => 0 :=
    funext fun a => by fin_cases a <;> decide
  exact (Memref.read_access_unit_zero (Elt Ideal) main_v3 hz (fun a => by rw [congrFun hz a]; simp) (gateArr V c)).symm

/-- Every index of the gate array lies in the one point's block. -/
theorem mem_blk (i : S32x1280.Idx) : i ∈ ((cfg1.win 6).blk t1_0).view.set := by
  show i ∈ ((View.whole main_v3).slice (win1_6.rect t1_0)).set
  rw [View.set_slice_whole, Rect.mem_set_unit]
  intro a
  have h0 : (i 0 : Nat) < 32 := (i 0).isLt
  have h1 : (i 1 : Nat) < 1280 := (i 1).isLt
  have e0 : win1_6.index t1_0 0 * win1_6.size 0 = 0 := by decide +kernel
  have e1 : win1_6.index t1_0 1 * win1_6.size 1 = 0 := by decide +kernel
  have s0 : win1_6.xsize (grid1.coords t1_0) 0 = 32 := by decide +kernel
  have s1 : win1_6.xsize (grid1.coords t1_0) 1 = 1280 := by decide +kernel
  match a with
  | ⟨0, _⟩ =>
    show win1_6.index t1_0 0 * win1_6.size 0 ≤ (i 0 : Nat)
      ∧ (i 0 : Nat) < win1_6.index t1_0 0 * win1_6.size 0 + win1_6.xsize (grid1.coords t1_0) 0
    rw [e0, s0]; omega
  | ⟨1, _⟩ =>
    show win1_6.index t1_0 1 * win1_6.size 1 ≤ (i 1 : Nat)
      ∧ (i 1 : Nat) < win1_6.index t1_0 1 * win1_6.size 1 + win1_6.xsize (grid1.coords t1_0) 1
    rw [e1, s1]; omega

/-- After the region the gate array holds the stored value of the six arrays. -/
theorem arr_eq (c : Dev nD) : (dat1 (F := Ideal) V c).arrAt 6 cfg1.N = gateArr V c :=
  (dat1 V c).arrAt_eq_of_cover 6 (gateArr V c) (flushed_eq V c) fun i => ⟨t1_0, flush1_6 t1_0, mem_blk i⟩

theorem gate_final (c : Dev nD) (b : Fin 32) (q : Fin 1280) :
    (dat1 (F := Ideal) V c).arrAt 6 cfg1.N (ix2 b q)
      = ChannelGate.gate (V c main_arg1) (V c main_arg2) (V c main_arg3) (V c main_arg4)
          (fun k => V c main_v2 (ix2 b k)) (fun k => V c main_v0_1 (ix2 b k)) q :=
  (congrFun (arr_eq V c) (ix2 b q)).trans
    (pay_apply (V c main_arg1) (V c main_arg3) (V c main_arg2) (V c main_arg4) (V c main_v2) (V c main_v0_1) b q)

end Cert.KernelIdeal.Gate

end
-- ==== Proof.Scale.lean ====
import proofs.«122001_j36696200577250_1_alg».proof.Proof.Gen.KernelIdeal.Frame
import proofs.«122001_j36696200577250_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Scale
open Cert.KernelIdeal Cert.KernelIdeal.Gen

variable (V : (c : Dev nD) → (b : Ref sig .tc) → Buf (Elt Ideal) ((c : Thread nD τ).loc b))

theorem zero_off3 : (![0, 0, 0] : Fin 3 → Nat) = fun _ => 0 := funext fun a => by fin_cases a <;> rfl
theorem zero_off2 : (![0, 0] : Fin 2 → Nat) = fun _ => 0 := funext fun a => by fin_cases a <;> rfl

/-- The gate block re-laid as [32, 1, 256] and repeated along the sequence axis, at (n, r, s), is the gate
    block at (n, s). -/
theorem gate_bcast_apply (v1 : Vec Ideal S32x256 .f32) (n : Fin 32) (r s : Fin 256) :
    broadcastTo S32x256x256 (shapeCast S32x1x256 v1 shapeCasts_S32x256_S32x1x256) broadcasts_S32x1x256_S32x256x256 (ix3 n r s)
      = v1 (ix2 n s) := by
  refine (broadcastTo_apply _ _ (ix3 n r s) (ix3 n (0 : Fin 1) s) ?_).trans ?_
  · intro a
    match a with
    | ⟨0, _⟩ => rfl
    | ⟨1, _⟩ => rfl
    | ⟨2, _⟩ => rfl
  · refine shapeCast_apply _ _ (ix3 n (0 : Fin 1) s) (ix2 n s) ?_
    rw [Shape.rowMajor_val_two, Shape.rowMajor_val_three]
    show n.val * 256 + s.val = (n.val * 1 + 0) * 256 + s.val
    omega

/-- The scaling body's stored value at (n, r, s): the x block there times the gate block at (n, s). -/
theorem pay_apply (v0 : Vec Ideal S32x256x256 .f32) (v1 : Vec Ideal S32x256 .f32) (n : Fin 32) (r s : Fin 256) :
    k2_pay1 v0 v1 (ix3 n r s) = v0 (ix3 n r s) * v1 (ix2 n s) := by
  unfold k2_pay1
  rw [shapeCast_self]
  show v0 (ix3 n r s) * broadcastTo S32x256x256 (shapeCast S32x1x256 v1 shapeCasts_S32x256_S32x1x256) broadcasts_S32x1x256_S32x256x256 (ix3 n r s) = _
  rw [gate_bcast_apply]

/-- The stored value at a block index y: the x block there times the gate block at y's batch and channel coordinates. -/
theorem pay_at (v0 : Vec Ideal S32x256x256 .f32) (v1 : Vec Ideal S32x256 .f32) (y : S32x256x256.Idx) :
    k2_pay1 v0 v1 y = v0 y * v1 (ix2 (⟨(y 0).val, (y 0).isLt⟩ : Fin 32) (⟨(y 2).val, (y 2).isLt⟩ : Fin 256)) := by
  obtain ⟨n, r, s, rfl⟩ : ∃ (n : Fin 32) (r s : Fin 256), y = ix3 n r s := ⟨y 0, y 1, y 2, eq_ix3 y⟩
  exact pay_apply v0 v1 n r s

/-- The printed index maps over the grid: point t has channel tile t / 8 and sequence tile t % 8; the x window and
    the output window sit at block (0, t % 8, t / 8), the gate window at block (0, t / 8). -/
theorem tile_facts : ∀ t : Fin cfg2.N,
    win2_0.index t (0 : Fin 3) = 0 ∧ win2_0.index t (1 : Fin 3) = t.val % 8 ∧ win2_0.index t (2 : Fin 3) = t.val / 8
    ∧ win2_1.index t (0 : Fin 2) = 0 ∧ win2_1.index t (1 : Fin 2) = t.val / 8
    ∧ win2_2.index t (0 : Fin 3) = 0 ∧ win2_2.index t (1 : Fin 3) = t.val % 8 ∧ win2_2.index t (2 : Fin 3) = t.val / 8 :=
  (by decide +kernel : ∀ t : Fin grid2.N, _)

/-- The (batch, channel) index under a (batch, sequence, channel) index. -/
abbrev chanIdx (i : S32x2048x1280.Idx) : S32x1280.Idx :=
  ix2 (⟨(i 0).val, (i 0).isLt⟩ : Fin 32) (⟨(i 2).val, (i 2).isLt⟩ : Fin 1280)

/-- The whole output array: x at (b, l, q) times the gate array at (b, q). -/
abbrev scaled (x : S32x2048x1280.Idx → EReal) (a : S32x1280.Idx → EReal) : S32x2048x1280.Idx → EReal :=
  fun i => x i * a (chanIdx i)

theorem scaled_ix3 (x : S32x2048x1280.Idx → EReal) (a : S32x1280.Idx → EReal) (b : Fin 32) (l : Fin 2048) (q : Fin 1280) :
    scaled x a (ix3 b l q) = ChannelGate.scaleBy x a b l q := rfl

/-- What point t writes back is block t of the scaled array. -/
theorem flushed_eq (c : Dev nD) (t : Fin cfg2.N) :
    (dat2 (F := Ideal) V c).flushed 2 t = ((cfg2.win 2).blk t).view.read (Elt Ideal) (scaled (V c main_arg0) (V c main_v3)) := by
  show (cfg2.win 2).cut (grid2.coords t) ((dat2 (F := Ideal) V c).after 2 t) = _
  rw [after2_2]
  unfold out2_2
  rw [View.canon_unit_zero zero_off3]
  simp only [View.ld_unit_zero (S := S32x256x256) zero_off3, View.ld_unit_zero (S := S32x256) zero_off2]
  obtain ⟨e00, e01, e02, e10, e11, e20, e21, e22⟩ := tile_facts t
  funext j
  show k2_pay1 (iblk2 V c 0 t) (iblk2 V c 1 t) j = scaled (V c main_arg0) (V c main_v3) (((cfg2.win 2).blk t).view.emb j)
  refine (pay_at _ _ j).trans ?_
  have hx : ((cfg2.win 0).blk t).view.emb j = ((cfg2.win 2).blk t).view.emb j := by
    funext a; apply Fin.ext
    match a with
    | ⟨0, _⟩ => show win2_0.index t (0 : Fin 3) * 32 + 1 * (j 0).val = win2_2.index t (0 : Fin 3) * 32 + 1 * (j 0).val; omega
    | ⟨1, _⟩ => show win2_0.index t (1 : Fin 3) * 256 + 1 * (j 1).val = win2_2.index t (1 : Fin 3) * 256 + 1 * (j 1).val; omega
    | ⟨2, _⟩ => show win2_0.index t (2 : Fin 3) * 256 + 1 * (j 2).val = win2_2.index t (2 : Fin 3) * 256 + 1 * (j 2).val; omega
  have hg : ((cfg2.win 1).blk t).view.emb (ix2 (⟨(j 0).val, (j 0).isLt⟩ : Fin 32) (⟨(j 2).val, (j 2).isLt⟩ : Fin 256))
      = chanIdx (((cfg2.win 2).blk t).view.emb j) := by
    funext a; apply Fin.ext
    match a with
    | ⟨0, _⟩ => show win2_1.index t (0 : Fin 2) * 32 + 1 * (j 0).val = win2_2.index t (0 : Fin 3) * 32 + 1 * (j 0).val; omega
    | ⟨1, _⟩ => show win2_1.index t (1 : Fin 2) * 256 + 1 * (j 2).val = win2_2.index t (2 : Fin 3) * 256 + 1 * (j 2).val; omega
  have key : ∀ (X : S32x2048x1280.Idx → EReal) (A : S32x1280.Idx → EReal),
      X (((cfg2.win 0).blk t).view.emb j)
          * A (((cfg2.win 1).blk t).view.emb (ix2 (⟨(j 0).val, (j 0).isLt⟩ : Fin 32) (⟨(j 2).val, (j 2).isLt⟩ : Fin 256)))
        = scaled X A (((cfg2.win 2).blk t).view.emb j) := by
    intro X A
    rw [hx, hg]
  exact key (V c main_arg0) (V c main_v3)

/-- An index of the array is in point t's output block iff each coordinate is in the block's range on its axis. -/
theorem mem_blk (t : Fin cfg2.N) (i : S32x2048x1280.Idx) :
    i ∈ ((cfg2.win 2).blk t).view.set ↔ ∀ a : Fin 3, win2_2.index t a * S32x256x256.size a ≤ (i a).val ∧ (i a).val < win2_2.index t a * S32x256x256.size a + S32x256x256.size a := by
  show i ∈ ((View.whole main_v4).slice (win2_2.rect t)).set ↔ _
  rw [View.set_slice_whole, Rect.mem_set_unit]
  exact Iff.rfl

/-- Every index (b, l, q) of the output array lies in the block of the point with channel tile q / 256 and sequence
    tile l / 256, which is point 8 * (q / 256) + l / 256; every point writes its block back. -/
theorem cover (i : S32x2048x1280.Idx) :
    ∃ t : Fin cfg2.N, (cfg2.win 2).flush t = true ∧ i ∈ ((cfg2.win 2).blk t).view.set := by
  have hi0 : (i 0).val < 32 := (i 0).isLt
  have hi1 : (i 1).val < 2048 := (i 1).isLt
  have hi2 : (i 2).val < 1280 := (i 2).isLt
  have hN : cfg2.N = 40 := N_2
  have ht : 8 * ((i 2).val / 256) + (i 1).val / 256 < cfg2.N := by rw [hN]; omega
  obtain ⟨-, -, -, -, -, e20, e21, e22⟩ := tile_facts ⟨8 * ((i 2).val / 256) + (i 1).val / 256, ht⟩
  have f21 : win2_2.index ⟨8 * ((i 2).val / 256) + (i 1).val / 256, ht⟩ (1 : Fin 3) = (8 * ((i 2).val / 256) + (i 1).val / 256) % 8 := e21
  have f22 : win2_2.index ⟨8 * ((i 2).val / 256) + (i 1).val / 256, ht⟩ (2 : Fin 3) = (8 * ((i 2).val / 256) + (i 1).val / 256) / 8 := e22
  refine ⟨⟨8 * ((i 2).val / 256) + (i 1).val / 256, ht⟩, flush2_2 _, ?_⟩
  rw [mem_blk]
  intro a
  match a with
  | ⟨0, _⟩ =>
    show win2_2.index _ (0 : Fin 3) * 32 ≤ (i 0).val ∧ (i 0).val < win2_2.index _ (0 : Fin 3) * 32 + 32
    omega
  | ⟨1, _⟩ =>
    show win2_2.index _ (1 : Fin 3) * 256 ≤ (i 1).val ∧ (i 1).val < win2_2.index _ (1 : Fin 3) * 256 + 256
    omega
  | ⟨2, _⟩ =>
    show win2_2.index _ (2 : Fin 3) * 256 ≤ (i 2).val ∧ (i 2).val < win2_2.index _ (2 : Fin 3) * 256 + 256
    omega

/-- After the scaling region the output array holds, at (b, l, q), region-entry x there times the region-entry gate
    array at (b, q). -/
theorem scale_final (c : Dev nD) (b : Fin 32) (l : Fin 2048) (q : Fin 1280) :
    (dat2 (F := Ideal) V c).arrAt 2 cfg2.N (ix3 b l q) = ChannelGate.scaleBy (V c main_arg0) (V c main_v3) b l q := by
  have h := (dat2 (F := Ideal) V c).arrAt_eq_of_cover 2 (scaled (V c main_arg0) (V c main_v3))
    (fun t _ => flushed_eq V c t) cover
  exact (congrFun h (ix3 b l q)).trans (scaled_ix3 _ _ b l q)

end Cert.KernelIdeal.Scale

end
-- ==== Proof.Chain.lean ====
/-
  The kernel's three regions, chained: what each region finds in its arrays when it is entered, walked back to the
  launch memory.  The pooling region reads `x` as launched; the host stretch after it divides the sums by the word of
  2048 and touches nothing else; the gate region reads the means, the maxima and the four weight and bias arrays as
  launched; the scaling region reads `x` as launched and the gate array the gate region left.  Composed, the result
  buffer after the last region is, entry by entry, `ChannelGate.out` of the five launched arrays.
-/
import proofs.«122001_j36696200577250_1_alg».proof.Proof.Gen.KernelIdeal.Frame
import proofs.«122001_j36696200577250_1_alg».proof.Proof.Spec
import proofs.«122001_j36696200577250_1_alg».proof.Proof.Pool
import proofs.«122001_j36696200577250_1_alg».proof.Proof.Gate
import proofs.«122001_j36696200577250_1_alg».proof.Proof.Scale
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain
open Cert.KernelIdeal Cert.KernelIdeal.Gen

variable (m : (ℓ : Loc nD τ sig) → Buf (Elt Ideal) ℓ) (ρ : Dev nD → PrngReg)

/-! ## The argument arrays at the regions' entries -/

/-- Region 2 finds `x` as launched. -/
theorem x_at2 (c : Dev nD) : V3 m ρ c main_arg0 = m ((c : Thread nD τ).loc main_arg0) :=
  (((W4_arr m ρ c 0).trans (((dat2 (V3 m ρ) c).arrAt_in 0 rfl _).trans (A_eq2 (V3 m ρ) c 0))).symm).trans (W4_main_arg0 m ρ c)

/-- The host stretch between regions 0 and 1 leaves a buffer it does not write as region 0 left it. -/
theorem host_keeps (c : Dev nD) (b : Ref sig .tc) (h1 : b ≠ main_cst) (h2 : b ≠ main_v1) (h3 : b ≠ main_v2) :
    W2 m ρ c (Proc.devRef .tc b) = W1 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes, Finset.mem_singleton]
  exact ⟨StableHlo.devRef_ne_of_ne h1, StableHlo.devRef_ne_of_ne h2, StableHlo.devRef_ne_of_ne h3⟩

/-- Region 1 finds the two weight matrices and the two biases as launched: neither region 0 nor the host stretch writes them. -/
theorem w1_at1 (c : Dev nD) : V2 m ρ c main_arg1 = m ((c : Thread nD τ).loc main_arg1) :=
  (host_keeps m ρ c main_arg1 (by decide) (by decide) (by decide)).trans (W1_of_ne m ρ c main_arg1 (by decide))
theorem b1_at1 (c : Dev nD) : V2 m ρ c main_arg2 = m ((c : Thread nD τ).loc main_arg2) :=
  (host_keeps m ρ c main_arg2 (by decide) (by decide) (by decide)).trans (W1_of_ne m ρ c main_arg2 (by decide))
theorem w2_at1 (c : Dev nD) : V2 m ρ c main_arg3 = m ((c : Thread nD τ).loc main_arg3) :=
  (host_keeps m ρ c main_arg3 (by decide) (by decide) (by decide)).trans (W1_of_ne m ρ c main_arg3 (by decide))
theorem b2_at1 (c : Dev nD) : V2 m ρ c main_arg4 = m ((c : Thread nD τ).loc main_arg4) :=
  (host_keeps m ρ c main_arg4 (by decide) (by decide) (by decide)).trans (W1_of_ne m ρ c main_arg4 (by decide))

/-! ## The pooled arrays at region 1's entry -/

/-- The host stretch divides region 0's sums by the word of 2048: region 1 finds the means. -/
theorem mean_at1 (c : Dev nD) (b : Fin 32) (k : Fin 1280) :
    V2 m ρ c main_v2 (ix2 b k) = ChannelGate.poolMean (m ((c : Thread nD τ).loc main_arg0)) b k := by
  have e : W2 m ρ c (Proc.devRef .tc main_v2)
      = Host.divf (W1 m ρ c (Proc.devRef .tc main_v0_0)) (broadcastInDim S32x1280 ![] bcast_S_S32x1280 (constant (F := Ideal) S_ .f32 0x45000000#32)) := by
    show StableHlo.after hostOps1 (W1 m ρ c) (Proc.devRef .tc main_v2) = _
    after_results
  have s : W1 m ρ c (Proc.devRef .tc main_v0_0) (ix2 b k) = ChannelGate.poolSum (m ((c : Thread nD τ).loc main_arg0)) b k :=
    (congrFun (W1_arr m ρ c 1) (ix2 b k)).trans (Pool.sum_final (V0 m ρ) c b k)
  show W2 m ρ c (Proc.devRef .tc main_v2) (ix2 b k) = _
  rw [e]
  show Ideal.div (W1 m ρ c (Proc.devRef .tc main_v0_0) (ix2 b k)) (Ideal.ofBits .f32 0x45000000#32) = _
  rw [s]
  rfl

/-- The host stretch does not touch region 0's maxima. -/
theorem max_at1 (c : Dev nD) (b : Fin 32) (k : Fin 1280) :
    V2 m ρ c main_v0_1 (ix2 b k) = ChannelGate.poolMax (m ((c : Thread nD τ).loc main_arg0)) b k :=
  (congrFun (host_keeps m ρ c main_v0_1 (by decide) (by decide) (by decide)) (ix2 b k)).trans
    ((congrFun (W1_arr m ρ c 2) (ix2 b k)).trans (Pool.max_final (V0 m ρ) c b k))

/-! ## The gate at region 2's entry, and the result -/

/-- Region 2 finds, in region 1's output array, the gate of the launched arguments. -/
theorem gate_at2 (c : Dev nD) (b : Fin 32) (q : Fin 1280) :
    V3 m ρ c main_v3 (ix2 b q)
      = ChannelGate.gate (m ((c : Thread nD τ).loc main_arg1)) (m ((c : Thread nD τ).loc main_arg2))
          (m ((c : Thread nD τ).loc main_arg3)) (m ((c : Thread nD τ).loc main_arg4))
          (ChannelGate.poolMean (m ((c : Thread nD τ).loc main_arg0)) b) (ChannelGate.poolMax (m ((c : Thread nD τ).loc main_arg0)) b) q := by
  refine (congrFun (W3_arr m ρ c 6) (ix2 b q)).trans ?_
  rw [Gate.gate_final (V2 m ρ) c b q, w1_at1, b1_at1, w2_at1, b2_at1,
    show (fun k => V2 m ρ c main_v2 (ix2 b k)) = ChannelGate.poolMean (m ((c : Thread nD τ).loc main_arg0)) b from
      funext fun k => mean_at1 m ρ c b k,
    show (fun k => V2 m ρ c main_v0_1 (ix2 b k)) = ChannelGate.poolMax (m ((c : Thread nD τ).loc main_arg0)) b from
      funext fun k => max_at1 m ρ c b k]

/-- The result buffer after the last region, entry by entry: the specification of the launched arguments. -/
theorem result_apply (c : Dev nD) (b : Fin 32) (l : Fin 2048) (q : Fin 1280) :
    W4 m ρ c (Proc.devRef .tc main_v4) (ix3 b l q)
      = ChannelGate.out (m ((c : Thread nD τ).loc main_arg0)) (m ((c : Thread nD τ).loc main_arg1)) (m ((c : Thread nD τ).loc main_arg2))
          (m ((c : Thread nD τ).loc main_arg3)) (m ((c : Thread nD τ).loc main_arg4)) b l q := by
  refine (congrFun (W4_arr m ρ c 2) (ix3 b l q)).trans ?_
  rw [Scale.scale_final (V3 m ρ) c b l q]
  unfold ChannelGate.scaleBy ChannelGate.out
  rw [x_at2, gate_at2]

end Cert.KernelIdeal.Chain

end
-- ==== Proof.RefValue.lean ====
import proofs.«122001_j36696200577250_1_alg».proof.Proof.Gen.ReferenceIdeal.Read
import proofs.«122001_j36696200577250_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.RefValue
open Cert.ReferenceIdeal Cert.ReferenceIdeal.Gen Cert.ReferenceIdeal.Read

/-! ## The two pooled rows

Both reductions run over the sequence axis (axis 1) of the input: at the reduced index `(b, k)` the entries read are
`(b, l, k)` for `l` over the 2048 sequence positions. -/

/-- The reduced index `(b, k)` with the sequence coordinate `l` put back is `(b, l, k)`. -/
theorem lift_seq (h : S32x2048x1280.Reduces [1] S32x1280) (b : Fin 32) (k : Fin 1280)
    (l : Fin (S32x2048x1280.size 1)) : h.lift (ix2 b k) l = ix3 b (⟨l.val, l.isLt⟩ : Fin 2048) k := by
  funext a; apply Fin.ext
  fin_cases a <;> rfl

/-- The maximum over the sequence, from the word of minus infinity: the fold of `max` over the 2048 entries `(b, l, k)`. -/
theorem pool_max (x0 : (⟨S32x2048x1280, .f32⟩ : BufTy).Contents (Elt Ideal)) (b : Fin 32) (k : Fin 1280) :
    val_main_v3 (F := Ideal) x0 (ix2 b k) = ChannelGate.poolMax x0 b k := by
  have h : S32x2048x1280.Reduces [1] S32x1280 := by decide
  refine (Host.reduce_eq_fold_single (α := Ideal .f32) FloatOps.maximumf x0 (val_main_cst_1 (F := Ideal))
    reducesTo_S32x2048x1280_S32x1280_d1 h h_S_ (ix2 b k)).trans ?_
  have hf : (x0 ∘ h.lift (ix2 b k)) = fun l : Fin 2048 => x0 (ix3 b l k) :=
    funext fun l => congrArg x0 (lift_seq h b k l)
  unfold ChannelGate.poolMax
  exact congrArg (fun f => Finset.fold max (Ideal.ofBits .f32 0xFF800000#32) f (Finset.univ : Finset (Fin 2048))) hf

/-- The mean over the sequence: the sum from the zero word of the 2048 entries `(b, l, k)`, divided by the word of 2048. -/
theorem pool_mean (x0 : (⟨S32x2048x1280, .f32⟩ : BufTy).Contents (Elt Ideal)) (b : Fin 32) (k : Fin 1280) :
    val_main_v2 (F := Ideal) x0 (ix2 b k) = ChannelGate.poolMean x0 b k := by
  rw [val_main_v2_apply, val_main_v0_apply, val_main_v1_apply]
  have hi : ∀ l : Fin 2048, idx_main_v0 (ix2 b k) l = ix3 b l k := fun l =>
    funext fun a => Fin.ext (by match a with | ⟨0, _⟩ => rfl | ⟨1, _⟩ => rfl | ⟨2, _⟩ => rfl)
  have hs : (∑ l : Fin 2048, x0 (idx_main_v0 (ix2 b k) l)) = ∑ l : Fin 2048, x0 (ix3 b l k) :=
    Finset.sum_congr rfl fun l _ => congrArg x0 (hi l)
  rw [hs]
  rfl

/-! ## The shared network

Both pooled arrays go through the same two dense layers with a positive part between them. The network is stated once,
over any array `p` of shape (32, 1280); row `b` of its result depends on row `b` of `p` only. -/

/-- A dense layer's value depends on the row entry by entry. -/
theorem dense_congr {K H : ℕ} (W : (⟨2, ![K, H]⟩ : Shape).Idx → EReal) (c : (⟨1, ![H]⟩ : Shape).Idx → EReal)
    (f g : Fin K → EReal) (hfg : ∀ k, f k = g k) (h : Fin H) : RowOps.dense W c f h = RowOps.dense W c g h :=
  congrArg (fun u => RowOps.dense W c u h) (funext hfg)

/-- The positive part depends on the row entry by entry. -/
theorem relu_congr {H : ℕ} (f g : Fin H → EReal) (hfg : ∀ k, f k = g k) (h : Fin H) : RowOps.relu f h = RowOps.relu g h :=
  congrArg (fun u => RowOps.relu u h) (funext hfg)

/-- The first layer and its positive part on an array `p` over (batch, channel): the positive part of `p · w1 + b1`. -/
def hidden (p : (⟨S32x1280, .f32⟩ : BufTy).Contents (Elt Ideal)) (x1 : (⟨S1280x160, .f32⟩ : BufTy).Contents (Elt Ideal))
    (x2 : (⟨S160, .f32⟩ : BufTy).Contents (Elt Ideal)) : (⟨S32x160, .f32⟩ : BufTy).Contents (Elt Ideal) :=
  maximumf (addf (Host.dotGeneral (φ₁ := .f32) (φ₂ := .f32) dot_S32x1280_S1280x160_S32x160_1_0_0_1_n_n none p x1)
      (broadcastInDim S32x160 ![0, 1] bcast_S1x160_S32x160_0_1 (broadcastInDim S1x160 ![1] bcast_S160_S1x160_1 x2)))
    (broadcastInDim S32x160 ![] bcast_S_S32x160 (constant (F := Ideal) S_ .f32 0x00000000#32))

/-- The two layers on an array `p` over (batch, channel): the hidden array, then `· w2 + b2`. -/
def net (p : (⟨S32x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) : (⟨S32x1280, .f32⟩ : BufTy).Contents (Elt Ideal) :=
  addf (F := Ideal) (Host.dotGeneral (F := Ideal) (φ₁ := .f32) (φ₂ := .f32) dot_S32x160_S160x1280_S32x1280_1_0_0_1_n_n none (hidden p x1 x2) x3)
    (broadcastInDim S32x1280 ![0, 1] bcast_S1x1280_S32x1280_0_1 (broadcastInDim S1x1280 ![1] bcast_S1280_S1x1280_1 x4))

/-- At `(b, q)` the network reads row `b` of `p`: the second layer of the positive part of the first layer of that row. -/
theorem net_apply (p : (⟨S32x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) (g : Fin 1280 → EReal) (b : Fin 32)
    (hg : ∀ k, p (ix2 b k) = g k) (q : Fin 1280) :
    net p x1 x2 x3 x4 (ix2 b q) = RowOps.dense x3 x4 (RowOps.relu (RowOps.dense x1 x2 g)) q := by
  unfold net
  refine (RowOps.dense_host_apply' (R := 32) (K := 160) (H := 1280) _ rfl (hidden p x1 x2) x3 x4 _ _ b q).trans ?_
  refine dense_congr _ _ _ _ (fun k => ?_) q
  unfold hidden
  refine (RowOps.relu_host_apply (R := 32) (H := 160) _ _ _ b k).trans ?_
  refine relu_congr _ _ (fun j => ?_) k
  refine (RowOps.dense_host_apply' (R := 32) (K := 1280) (H := 160) _ rfl p x1 x2 _ _ b j).trans ?_
  exact dense_congr _ _ _ _ hg j

/-- The network's branch on the mean is the network at the mean array. -/
theorem v12_eq (x0 : (⟨S32x2048x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) :
    val_main_v12 (F := Ideal) x0 x1 x2 x3 x4 = net (val_main_v2 (F := Ideal) x0) x1 x2 x3 x4 := rfl

/-- The network's branch on the maximum is the network at the maximum array. -/
theorem v21_eq (x0 : (⟨S32x2048x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) :
    val_main_v21 (F := Ideal) x0 x1 x2 x3 x4 = net (val_main_v3 (F := Ideal) x0) x1 x2 x3 x4 := rfl

/-! ## The gate and the output -/

/-- The gate at `(b, q)`: the logistic function of the sum of the two branches, each the network on a pooled row of `b`. -/
theorem gate_apply (x0 : (⟨S32x2048x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) (b : Fin 32) (q : Fin 1280) :
    val_main_v28 (F := Ideal) x0 x1 x2 x3 x4 (ix2 b q)
      = ChannelGate.gate x1 x2 x3 x4 (ChannelGate.poolMean x0 b) (ChannelGate.poolMax x0 b) q := by
  refine (RowOps.logistic_host_apply (s := S32x1280) (val_main_v22 (F := Ideal) x0 x1 x2 x3 x4) ![] bcast_S_S32x1280
    bcast_S_S32x1280 (ix2 b q)).trans ?_
  unfold ChannelGate.gate
  refine congrArg Ideal.logistic ?_
  show val_main_v12 (F := Ideal) x0 x1 x2 x3 x4 (ix2 b q) + val_main_v21 (F := Ideal) x0 x1 x2 x3 x4 (ix2 b q) = _
  rw [v12_eq, v21_eq, net_apply _ x1 x2 x3 x4 _ b (pool_mean x0 b) q, net_apply _ x1 x2 x3 x4 _ b (pool_max x0 b) q]

/-- The reference's result at `(b, l, q)`: the input there times the gate of `(b, q)`, which the two broadcasts carry
    along the sequence. -/
theorem ref_apply (x0 : (⟨S32x2048x1280, .f32⟩ : BufTy).Contents (Elt Ideal)) (x1 : (⟨S1280x160, .f32⟩ : BufTy).Contents (Elt Ideal))
    (x2 : (⟨S160, .f32⟩ : BufTy).Contents (Elt Ideal)) (x3 : (⟨S160x1280, .f32⟩ : BufTy).Contents (Elt Ideal))
    (x4 : (⟨S1280, .f32⟩ : BufTy).Contents (Elt Ideal)) (b : Fin 32) (l : Fin 2048) (q : Fin 1280) :
    val_main_v31 (F := Ideal) x0 x1 x2 x3 x4 (ix3 b l q) = ChannelGate.out x0 x1 x2 x3 x4 b l q := by
  rw [val_main_v31_apply, val_main_v30_apply, val_main_v29_apply]
  have hi : idx_main_v29 (idx_main_v30 (ix3 b l q)) = ix2 b q :=
    funext fun a => Fin.ext (by match a with | ⟨0, _⟩ => rfl | ⟨1, _⟩ => rfl)
  rw [hi, gate_apply]
  rfl

end Cert.ReferenceIdeal.RefValue

end
-- ==== Proof.lean ====
/-
  Channel attention by pooling: the kernel's three regions against the reference, over the extended reals.

  The kernel pools `x` over the sequence axis in a first region (a running sum and a running maximum per
  (batch, channel), accumulated over four sequence tiles and written back after the last), divides the sums by the
  sequence length on the host, runs a shared two-layer network and the logistic function on both pooled arrays in a
  second region, and scales `x` by the resulting gate in a third.  The reference does the same with whole-array
  operations.  Both results are, entry by entry, `ChannelGate.out` of the five argument arrays: a sum over 2048 positions
  is the same whether taken at once or tile by tile from the zero word (addition of extended reals is associative
  and commutative), likewise the maximum from the word of minus infinity; a matrix product into a zero accumulator
  is the host's contraction; the spelt-out `1 / (1 + exp (-z))` is the logistic function.  No step needs the
  inputs to be finite, so the precondition is never opened.

  The frames of the two kernel programs are the generated ones; the reference's frame is its generated run with the
  result dropped; the idealization rewrote nothing.
-/
import proofs.«122001_j36696200577250_1_alg».proof.Defs
import proofs.«122001_j36696200577250_1_alg».proof.Proof.Gen.Kernel
import proofs.«122001_j36696200577250_1_alg».proof.Proof.Gen.Kernel.Skeleton
import proofs.«122001_j36696200577250_1_alg».proof.Proof.Gen.Kernel.Launch
import proofs.«122001_j36696200577250_1_alg».proof.Proof.Gen.Kernel.Points
import proofs.«122001_j36696200577250_1_alg».proof.Proof.Gen.Kernel.Frame
import proofs.«122001_j36696200577250_1_alg».proof.Proof.Gen.KernelIdeal
import proofs.«122001_j36696200577250_1_alg».proof.Proof.Gen.KernelIdeal.Skeleton
import proofs.«122001_j36696200577250_1_alg».proof.Proof.Gen.KernelIdeal.Launch
import proofs.«122001_j36696200577250_1_alg».proof.Proof.Gen.KernelIdeal.Points
import proofs.«122001_j36696200577250_1_alg».proof.Proof.Gen.KernelIdeal.Frame
import proofs.«122001_j36696200577250_1_alg».proof.Proof.Gen.ReferenceIdeal
import proofs.«122001_j36696200577250_1_alg».proof.Proof.Gen.ReferenceIdeal.Run
import proofs.«122001_j36696200577250_1_alg».proof.Proof.Gen.ReferenceIdeal.Read
import proofs.«122001_j36696200577250_1_alg».proof.Proof.Gen.Pre_finite_inputs
import proofs.«122001_j36696200577250_1_alg».proof.Proof.RunAll
import proofs.«122001_j36696200577250_1_alg».proof.Proof.Chain
import proofs.«122001_j36696200577250_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the result at `ChannelGate.out` of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W4 m ρ c (Proc.devRef .tc Cert.KernelIdeal.main_v4), Cert.KernelIdeal.RunAll.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, (hagree c).1, (hagree c).2.1, (hagree c).2.2.1, (hagree c).2.2.2.1, (hagree c).2.2.2.2]
  funext i
  obtain ⟨b, l, q, rfl⟩ : ∃ (b : Fin 32) (l : Fin 2048) (q : Fin 1280), i = ix3 b l q := ⟨i 0, i 1, i 2, eq_ix3 i⟩
  exact (Cert.ReferenceIdeal.RefValue.ref_apply _ _ _ _ _ b l q).trans (Cert.KernelIdeal.Chain.result_apply m ρ c b l q).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
